-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S512x4096 : Shape := ⟨2, ![512, 4096]⟩
abbrev S1x512 : Shape := ⟨2, ![1, 512]⟩
abbrev S256x512 : Shape := ⟨2, ![256, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S512x4096, .f32⟩
  | .local _ .vmem, ⟨3, _⟩ => ⟨S512x4096, .f32⟩
  | .local _ .vmem, ⟨4, _⟩ => ⟨S1x512, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  dot_S256x4096_S512x4096_S256x512_1_1_0_0_n_n_wf : DotDims.WF S256x4096 S512x4096 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S8192x4096.size a
  hwx0_3 : ∀ i : grid0.Coords, EltTy.bits .f32 = 32 ∨ (Rect.block (s := S8192x4096) S256x512.size (cc0_transform_3 i) (hinb0_3 i)).WholeWords (EltTy.packing .f32)

variable [Facts₀]

def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S8192x4096, .f32⟩
  | .hbm, ⟨5, _⟩ => ⟨S8192x4096, .i1⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S4096x4096, .f32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S8192x4096, .f32⟩
  | .hbm, ⟨22, _⟩ => ⟨S1x4096, .f32⟩
  | .hbm, ⟨23, _⟩ => ⟨S8192x4096, .f32⟩
  | .hbm, ⟨24, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_cst_3 : Ref sig .tc := ⟨.hbm, 15, rfl⟩
abbrev main_cst_4 : Ref sig .tc := ⟨.hbm, 16, rfl⟩
abbrev main_call1_v0 : Ref sig .tc := ⟨.hbm, 17, rfl⟩
abbrev main_call1_v1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The binarized dense layer as one function of its three argument arrays, on the extended reals.

  An entry y of the activations or of the weights is first replaced by its sign, read as the float compare
  reads it: one where 0 ≤ y, minus one elsewhere (so zero goes to one, and both infinities have a sign).
  Entry (r, o) of the result is then the sum over the shared axis k of sign(x[r, k]) · sign(w[o, k]),
  plus the bias entry b[o].
-/
import Idealize.ShloMosaic.PureOps.Ideal
import Idealize.ShloMosaic.Lib.ValueIdx

noncomputable section

open scoped BigOperators

namespace Cert.BinaryLinear

open Idealize.ShloMosaic Idealize.ShloMosaic.ValueIdx

/-- The sign of an extended real as the layer takes it: one where `0 ≤ y`, minus one elsewhere. The three float
    words (zero, one, minus one) are kept as words: both programs spell the same three. -/
def bin (y : EReal) : EReal :=
  Scalar.select (Ideal.cmp .oge y (Ideal.ofBits .f32 0x00000000#32))
    (Ideal.ofBits .f32 0x3F800000#32) (Ideal.ofBits .f32 0xBF800000#32)

/-- The layer: entry (r, o) is the sum over k of sign(x[r, k]) · sign(w[o, k]), plus b[o]. -/
def layer (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => (∑ k : Fin 4096, bin (x (ix2 (i 0) k)) * bin (w (ix2 (i 1) k))) + b (ix1 (i 1))

/-- The layer at an entry given by its two coordinates. -/
theorem layer_apply (x : (⟨2, ![8192, 4096]⟩ : Shape).Idx → EReal) (w : (⟨2, ![4096, 4096]⟩ : Shape).Idx → EReal)
    (b : (⟨1, ![4096]⟩ : Shape).Idx → EReal) (r : Fin 8192) (o : Fin 4096) :
    layer x w b (ix2 r o) = (∑ k : Fin 4096, bin (x (ix2 r k)) * bin (w (ix2 o k))) + b (ix1 o) := rfl

end Cert.BinaryLinear

end
-- ==== Proof.RefLayer.lean ====
/-
  The reference's result is the layer of Spec.lean.

  The reference takes the sign of every activation and of every weight (a compare with zero choosing between one and
  minus one), contracts the two sign arrays along their second axes, and adds the bias laid along the rows. Read at
  entry (r, o) this is the sum over k of sign(x[r, k]) · sign(w[o, k]) plus b[o].
-/
import proofs.«109801_j81063212745346_1_alg».proof.Proof.Gen.ReferenceIdeal.Read
import proofs.«109801_j81063212745346_1_alg».proof.Proof.Spec

noncomputable section

open scoped BigOperators

namespace Cert.BinaryLinear.Reference

open Cert.ReferenceIdeal Cert.ReferenceIdeal.Read Idealize.ShloMosaic Idealize.ShloMosaic.ValueIdx Cert.BinaryLinear

/-- The sign of an activation as the reference computes it, at an entry. -/
theorem sign_x (x : FVec Ideal S8192x4096 .f32) (i : S8192x4096.Idx) : val_main_v3 (F := Ideal) x i = bin (x i) := rfl

/-- The sign of a weight as the reference computes it, at an entry. -/
theorem sign_w (w : FVec Ideal S4096x4096 .f32) (i : S4096x4096.Idx) : val_main_v7 (F := Ideal) w i = bin (w i) := rfl

/-- The reference's last stage, as a function of the three arguments, is the layer. -/
theorem stage_eq_layer (x : FVec Ideal S8192x4096 .f32) (w : FVec Ideal S4096x4096 .f32) (b : FVec Ideal S4096 .f32) :
    val_main_v11 (F := Ideal) x w b = layer x w b := by
  funext i
  obtain ⟨r, o, rfl⟩ : ∃ (r : Fin 8192) (o : Fin 4096), i = ix2 r o := ⟨i 0, i 1, eq_ix2 i⟩
  rw [layer_apply, val_main_v11_apply, val_main_v8_apply, val_main_v10_apply, val_main_v9_apply]
  have hl : ∀ k : Fin 4096, lidx_main_v8 (ix2 r o) k = ix2 r k := fun k =>
    funext fun a => Fin.ext (by match a with | ⟨0, _⟩ => rfl | ⟨1, _⟩ => rfl)
  have hr : ∀ k : Fin 4096, ridx_main_v8 (ix2 r o) k = ix2 o k := fun k =>
    funext fun a => Fin.ext (by match a with | ⟨0, _⟩ => rfl | ⟨1, _⟩ => rfl)
  have hb : idx_main_v9 (idx_main_v10 (ix2 r o)) = ix1 o :=
    funext fun a => Fin.ext (by match a with | ⟨0, _⟩ => rfl)
  rw [hb]
  show (∑ k : Fin 4096, _) + _ = _
  refine congrArg (· + b (ix1 o)) (Finset.sum_congr rfl fun k _ => ?_)
  rw [hl, hr, sign_x, sign_w]

end Cert.BinaryLinear.Reference

end
-- ==== Proof.LibRowDot.lean ====
/-
  The product of ROWS BY ROWS read at an entry on the extended reals: an [m, k] factor against an [n, k] factor, both
  contracted along their second axis (the product of A with the transpose of B, as a linear layer spells it with its
  weight stored [out, in]). Into a zero accumulator, entry (a, b) is the sum over c of A(a, c) · B(b, c).
-/
import Idealize.ShloMosaic.Lib.ValueIdx
import Idealize.ShloMosaic.PureOps.Ideal.Laws

noncomputable section

open scoped BigOperators

namespace Cert.RowDot

open Idealize.ShloMosaic Idealize.ShloMosaic.ValueIdx

/-- The dimension numbers of the product of rows by rows: both factors contracted along axis 1. -/
abbrev rowDot (m n k : Nat) (wf : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ where
  lhsContracting := [1]
  rhsContracting := [1]
  lhsNonContracting := [0]
  rhsNonContracting := [0]
  lhsBatch := []
  rhsBatch := []
  wf := wf

/-- Rows by rows, into the zero accumulator: entry (a, b) is the sum over c of A(a, c) · B(b, c). -/
theorem matmul_rowDot_apply {m n k : Nat} {φ₁ φ₂ : FTy}
    (wf : DotDims.WF ⟨2, ![m, k]⟩ ⟨2, ![n, k]⟩ ⟨2, ![m, n]⟩ [1] [1] [0] [0] [] []) (prec : Option ContractPrecision)
    (A : FVec Ideal ⟨2, ![m, k]⟩ φ₁) (B : FVec Ideal ⟨2, ![n, k]⟩ φ₂) (a : Fin m) (b : Fin n) :
    matmul (rowDot m n k wf) prec A B (constant ⟨2, ![m, n]⟩ .f32 0x00000000#32) (ix2 a b)
      = ∑ c : Fin k, A (ix2 a c) * B (ix2 b c) := by
  show FloatOps.matmul (rowDot m n k wf) prec A B (constant ⟨2, ![m, n]⟩ .f32 0x00000000#32) (ix2 a b) = _
  rw [Ideal.matmul_constant_zero_apply, ← Equiv.sum_comp (contrEquiv1 (rowDot m n k wf) k rfl rfl).symm]
  refine Finset.sum_congr rfl fun c _ => ?_
  have c2 := contrEquiv1_symm_val (rowDot m n k wf) k rfl rfl c
  have l2 : (rowDot m n k wf).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (rowDot m n k wf).rhsIdx (ix2 a b) ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowDot

end
-- ==== Proof.Payload.lean ====
/-
  What the kernel body computes at one grid point, read at an entry of its output block.

  The body loads a block of 256 rows of activations, a block of 512 rows of weights and the matching 512 bias entries
  (a [1, 512] row), takes the sign of every activation and weight entry, multiplies the two sign blocks rows by rows
  into a zero accumulator and adds the bias row laid over the 256 rows. Entry (p, q) of the stored block is therefore
  the sum over k of sign(xblock[p, k]) · sign(wblock[q, k]) plus brow[0, q]. The narrowing of the signs to the
  shorter float format changes nothing on the extended reals.
-/
import proofs.«109801_j81063212745346_1_alg».proof.Proof.Gen.KernelIdeal.Skeleton
import proofs.«109801_j81063212745346_1_alg».proof.Proof.LibRowDot
import proofs.«109801_j81063212745346_1_alg».proof.Proof.Spec
import Idealize.ShloMosaic.Lib.Pipeline.Value
import Idealize.ShloMosaic.Lib.ValueIdx

noncomputable section

open scoped BigOperators

namespace Cert.BinaryLinear.Kernel

open Cert.KernelIdeal Cert.KernelIdeal.Gen Idealize.ShloMosaic Idealize.ShloMosaic.ValueIdx Cert.BinaryLinear

/-- The bias row laid over the 256 rows of the block: entry (p, q) is the row's entry (0, q). The two shape casts
    between equal shapes are the identity. -/
theorem bias_rows (x2 : Vec Ideal S1x512 .f32) (p : Fin 256) (q : Fin 512) :
    broadcastTo S256x512 (shapeCast S1x512 (shapeCast S1x512 x2 shapeCasts_S1x512_S1x512) shapeCasts_S1x512_S1x512)
      broadcasts_S1x512_S256x512 (ix2 p q) = x2 (ix2 (0 : Fin 1) q) := by
  rw [shapeCast_self, shapeCast_self]
  exact broadcastTo_apply _ _ _ _ (fun a => by match a with | ⟨0, _⟩ => rfl | ⟨1, _⟩ => rfl)

/-- The stored block at entry (p, q): the sum over k of the two signs' product, plus the bias entry. -/
theorem payload_apply (x0 : Vec Ideal S256x4096 .f32) (x1 : Vec Ideal S512x4096 .f32) (x2 : Vec Ideal S1x512 .f32)
    (p : Fin 256) (q : Fin 512) :
    k0_pay1 (F := Ideal) x0 x1 x2 (ix2 p q)
      = (∑ k : Fin 4096, bin (x0 (ix2 p k)) * bin (x1 (ix2 q k))) + x2 (ix2 (0 : Fin 1) q) := by
  unfold k0_pay1
  show matmul (F := Ideal) (Cert.RowDot.rowDot 256 512 4096 dot_S256x4096_S512x4096_S256x512_1_1_0_0_n_n_wf) none
        (fun i => bin (x0 i) : FVec Ideal S256x4096 .bf16) (fun i => bin (x1 i) : FVec Ideal S512x4096 .bf16)
        (constant (F := Ideal) S256x512 .f32 0x00000000#32) (ix2 p q)
      + broadcastTo S256x512 (shapeCast S1x512 (shapeCast S1x512 x2 shapeCasts_S1x512_S1x512) shapeCasts_S1x512_S1x512)
          broadcasts_S1x512_S256x512 (ix2 p q) = _
  rw [Cert.RowDot.matmul_rowDot_apply, bias_rows]

end Cert.BinaryLinear.Kernel

end
-- ==== Proof.Blocks.lean ====
/-
  From the blocks to the whole result array.

  The grid has 32 × 8 points. At point (i, j) the kernel reads rows 256·i … 256·i + 255 of the activations, rows
  512·j … 512·j + 511 of the weights and entries 512·j … 512·j + 511 of the bias (as a [1, 4096] row the host
  reshapes the bias vector into), and writes block (i, j), of 256 × 512 entries, of the result. So entry (p, q) of
  the block written at (i, j) is the layer's entry (256·i + p, 512·j + q), and since the 256 blocks tile the
  [8192, 4096] result, the array after the run is the layer of the three arguments.
-/
import proofs.«109801_j81063212745346_1_alg».proof.Proof.Gen.KernelIdeal.Value
import proofs.«109801_j81063212745346_1_alg».proof.Proof.Payload
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.BinaryLinear.Kernel

open Cert.KernelIdeal Cert.KernelIdeal.Gen Cert.KernelIdeal.Value Idealize.ShloMosaic.ValueIdx Cert.BinaryLinear

variable (m : (ℓ : Loc nD τ sig) → Buf (Elt Ideal) ℓ) (ρ : Dev nD → PrngReg)

theorem hz : (![0, 0] : Fin 2 → Nat) = fun _ => 0 := funext fun a => by fin_cases a <;> rfl

/-- The block indices of the four windows at a point, decided over the 256 points: the activations' block row is the
    result's block row, the weights' block row and the bias row's block column are the result's block column, and the
    other coordinates are zero; the result's block indices are below 32 and 8. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) < 32 ∧ win0_3.index t (1 : Fin 2) < 8 :=
  (by decide +kernel : ∀ t : Fin grid0.N, _)

/-- Every block (i, j) of the result is some point's. -/
theorem idx_onto : ∀ (q0 : Fin 32) (q1 : Fin 8), ∃ t : Fin cfg0.N, win0_3.index t = ![q0.val, q1.val] :=
  (by decide +kernel : ∀ (q0 : Fin 32) (q1 : Fin 8), ∃ t : Fin grid0.N, win0_3.index t = ![q0.val, q1.val])

/-- The bias as the region finds it: the host's reshape of the bias vector into a [1, 4096] row. -/
theorem bias_row (c : Dev nD) :
    (V m c main_v0 : S1x4096.Idx → EReal)
      = shapeCast S1x4096 (m ((c : Thread nD τ).loc main_arg2) : S4096.Idx → EReal) shapeCasts_S4096_S1x4096 := by
  dsimp only [Gen.V, Gen.hostOps0]
  after_results
  rfl

/-- The activations' block at a point, read at (p, k): row `256·i + p` of the activations, column k. -/
theorem x_read (c : Dev nD) (t : Fin cfg0.N) (p : Fin 256) (k : Fin 4096) (R : Fin 8192)
    (hR : R.val = win0_3.index t (0 : Fin 2) * 256 + p.val) :
    (iblk m c 0 t : Vec Ideal S256x4096 .f32) (ix2 p k)
      = (m ((c : Thread nD τ).loc main_arg0) : S8192x4096.Idx → EReal) (ix2 R k) := by
  obtain ⟨e00, e01, -, -, -, -, -, -⟩ := idx_facts t
  unfold iblk
  rw [View.read_apply]
  show V m c main_arg0 _ = _
  rw [V_main_arg0]
  congr 1
  funext a
  apply Fin.ext
  match a with
  | ⟨0, _⟩ => show win0_0.index t (0 : Fin 2) * 256 + 1 * p.val = R.val; omega
  | ⟨1, _⟩ => show win0_0.index t (1 : Fin 2) * 4096 + 1 * k.val = k.val; omega

/-- The weights' block at a point, read at (q, k): row `512·j + q` of the weights, column k. -/
theorem w_read (c : Dev nD) (t : Fin cfg0.N) (q : Fin 512) (k : Fin 4096) (O : Fin 4096)
    (hO : O.val = win0_3.index t (1 : Fin 2) * 512 + q.val) :
    (iblk m c 1 t : Vec Ideal S512x4096 .f32) (ix2 q k)
      = (m ((c : Thread nD τ).loc main_arg1) : S4096x4096.Idx → EReal) (ix2 O k) := by
  obtain ⟨-, -, e10, e11, -, -, -, -⟩ := idx_facts t
  unfold iblk
  rw [View.read_apply]
  show V m c main_arg1 _ = _
  rw [V_main_arg1]
  congr 1
  funext a
  apply Fin.ext
  match a with
  | ⟨0, _⟩ => show win0_1.index t (0 : Fin 2) * 512 + 1 * q.val = O.val; omega
  | ⟨1, _⟩ => show win0_1.index t (1 : Fin 2) * 4096 + 1 * k.val = k.val; omega

/-- The bias row's block at a point, read at (0, q): entry `512·j + q` of the bias vector. -/
theorem b_read (c : Dev nD) (t : Fin cfg0.N) (q : Fin 512) (O : Fin 4096)
    (hO : O.val = win0_3.index t (1 : Fin 2) * 512 + q.val) :
    (iblk m c 2 t : Vec Ideal S1x512 .f32) (ix2 (0 : Fin 1) q)
      = (m ((c : Thread nD τ).loc main_arg2) : S4096.Idx → EReal) (ix1 O) := by
  obtain ⟨-, -, -, -, e20, e21, -, -⟩ := idx_facts t
  unfold iblk
  rw [View.read_apply]
  show (V m c main_v0 : S1x4096.Idx → EReal) _ = _
  rw [bias_row, shapeCast_addUnit_apply]
  congr 1
  funext a
  apply Fin.ext
  match a with
  | ⟨0, _⟩ => show win0_2.index t (1 : Fin 2) * 512 + 1 * q.val = O.val; omega

/-- The result array: the layer of the three arguments. -/
abbrev result (c : Dev nD) : Buf (Elt Ideal) ((c : Thread nD τ).loc main_v1) :=
  layer (m ((c : Thread nD τ).loc main_arg0)) (m ((c : Thread nD τ).loc main_arg1)) (m ((c : Thread nD τ).loc main_arg2))

/-- What point `t` writes back is block `t` of the layer. -/
theorem flushed_eq (c : Dev nD) (t : Fin cfg0.N) :
    (dats m 0 c).flushed 3 t = ((cfg0.win 3).blk t).view.read (Elt Ideal) (result m c) := by
  rw [flushed3]
  unfold out0_3
  rw [View.canon_unit_zero hz]
  simp only [View.ld_unit_zero (S := S256x4096) hz, View.ld_unit_zero (S := S512x4096) hz, View.ld_unit_zero (S := S1x512) hz]
  obtain ⟨-, -, -, -, -, -, l0, l1⟩ := idx_facts t
  funext j
  obtain ⟨p, q, rfl⟩ : ∃ (p : Fin 256) (q : Fin 512), j = ix2 p q := ⟨j 0, j 1, eq_ix2 j⟩
  have hp : p.val < 256 := p.isLt
  have hq : q.val < 512 := q.isLt
  refine (payload_apply (iblk m c 0 t) (iblk m c 1 t) (iblk m c 2 t) p q).trans ?_
  rw [View.read_apply]
  obtain ⟨R, hR⟩ : ∃ R : Fin 8192, R.val = win0_3.index t (0 : Fin 2) * 256 + p.val := ⟨⟨_, by omega⟩, rfl⟩
  obtain ⟨O, hO⟩ : ∃ O : Fin 4096, O.val = win0_3.index t (1 : Fin 2) * 512 + q.val := ⟨⟨_, by omega⟩, rfl⟩
  have he : ((cfg0.win 3).blk t).view.emb (ix2 p q) = ix2 R O := by
    funext a
    apply Fin.ext
    match a with
    | ⟨0, _⟩ => show win0_3.index t (0 : Fin 2) * 256 + 1 * p.val = R.val; omega
    | ⟨1, _⟩ => show win0_3.index t (1 : Fin 2) * 512 + 1 * q.val = O.val; omega
  rw [he]
  show _ = layer _ _ _ (ix2 R O)
  rw [layer_apply, b_read m c t q O hO]
  refine congrArg (· + _) (Finset.sum_congr rfl fun k _ => ?_)
  rw [x_read m c t p k R hR, w_read m c t q k O hO]

/-- An index of the result is in point `t`'s block iff each coordinate is in the block's range on its axis. -/
theorem mem_blk (t : Fin cfg0.N) (i : S8192x4096.Idx) :
    i ∈ ((cfg0.win 3).blk t).view.set ↔ ∀ a : Fin 2, win0_3.index t a * S256x512.size a ≤ (i a).val
      ∧ (i a).val < win0_3.index t a * S256x512.size a + S256x512.size a := by
  show i ∈ ((View.whole main_v1).slice (win0_3.rect t)).set ↔ _
  rw [View.set_slice_whole, Rect.mem_set_unit]
  exact Iff.rfl

/-- The 256 blocks tile the result: entry (r, o) lies in the block of the point with block indices (r / 256, o / 512). -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 256, by omega⟩ ⟨(i 1).val / 512, by omega⟩
  have q0 : win0_3.index t (0 : Fin 2) = (i 0).val / 256 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 512 ≤ (i 1).val ∧ (i 1).val < win0_3.index t (1 : Fin 2) * 512 + 512; omega

/-- The result array after the run is the layer of the three arguments. -/
theorem final (c : Dev nD) : (dats m 0 c).arrAt 3 cfg0.N = result m c :=
  (dats m 0 c).arrAt_eq_of_cover 3 (result m c) (fun t _ => flushed_eq m c t) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.BinaryLinear.Kernel

end
-- ==== Proof.lean ====
/-
  A binarized dense layer, as a tiled kernel and as a plain einsum, compute one function on the extended reals.

  Both programs replace every activation x[r, k] and every weight w[o, k] by its sign (one where the entry is at
  least zero, minus one elsewhere, decided by the same float compare against the same zero word and choosing between
  the same two words), contract the two sign arrays along k, and add the bias b[o]. The kernel does this one
  256 × 512 block of the result at a time, over a 32 × 8 grid, feeding the signs to the matrix unit in a shorter float
  format and accumulating from zero; the reference does it in one contraction over the whole arrays. On the extended
  reals a change of float format is the identity, a product into a zero accumulator is the plain sum of products, and
  the blocks tile the result, so both end with

      out[r, o] = (sum over k of sign(x[r, k]) · sign(w[o, k])) + b[o].

  No algebraic law beyond reading both sums at the same index is needed, so finiteness of the inputs is never used.
  The pieces: Spec.lean (the layer as one function), RefLayer.lean (the reference's result is the layer),
  Payload.lean (what the kernel body stores at one point, at an entry), Blocks.lean (the stored blocks are the
  layer's blocks, and they tile the result), LibRowDot.lean (a rows-by-rows product into zero read at an entry).
-/
import proofs.«109801_j81063212745346_1_alg».proof.Defs
import proofs.«109801_j81063212745346_1_alg».proof.Proof.Gen.Kernel
import proofs.«109801_j81063212745346_1_alg».proof.Proof.Gen.Kernel.Skeleton
import proofs.«109801_j81063212745346_1_alg».proof.Proof.Gen.Kernel.Launch
import proofs.«109801_j81063212745346_1_alg».proof.Proof.Gen.Kernel.Points
import proofs.«109801_j81063212745346_1_alg».proof.Proof.Gen.Kernel.Frame
import proofs.«109801_j81063212745346_1_alg».proof.Proof.Gen.KernelIdeal
import proofs.«109801_j81063212745346_1_alg».proof.Proof.Gen.KernelIdeal.Skeleton
import proofs.«109801_j81063212745346_1_alg».proof.Proof.Gen.KernelIdeal.Launch
import proofs.«109801_j81063212745346_1_alg».proof.Proof.Gen.KernelIdeal.Points
import proofs.«109801_j81063212745346_1_alg».proof.Proof.Gen.KernelIdeal.Frame
import proofs.«109801_j81063212745346_1_alg».proof.Proof.Gen.ReferenceIdeal
import proofs.«109801_j81063212745346_1_alg».proof.Proof.Gen.Pre_finite_inputs
import proofs.«109801_j81063212745346_1_alg».proof.Proof.Gen.KernelIdeal.Value
import proofs.«109801_j81063212745346_1_alg».proof.Proof.Gen.ReferenceIdeal.Run
import proofs.«109801_j81063212745346_1_alg».proof.Proof.Gen.ReferenceIdeal.Read
import proofs.«109801_j81063212745346_1_alg».proof.Proof.RefLayer
import proofs.«109801_j81063212745346_1_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the three arguments, the kernel's result array ends at the layer of the arguments (the
    blocks it writes are the layer's and tile the result), and the reference's result is its last stage, which is the
    layer of the same arguments. -/
theorem algebraic : Cert.algebraic_KernelIdeal_ReferenceIdeal := by
  intro m ρ m' ρ' _ hagree
  refine ⟨fun c => Cert.BinaryLinear.Kernel.result m c, Cert.BinaryLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.BinaryLinear.Reference.stage_eq_layer,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
